-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S2048x512 : Shape := ⟨2, ![2048, 512]⟩
abbrev S2048 : Shape := ⟨1, ![2048]⟩
abbrev S1x1024 : Shape := ⟨2, ![1, 1024]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S1x1024 .f32) (main_arg10 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S16384x1 .f32) (main_arg5 : FVec F S2048x512 .f32) (main_arg6 : FVec F S2048x512 .f32) (main_arg7 : FVec F S2048 .f32) (main_arg8 : FVec F S2048 .f32) (main_arg9 : FVec F S1x1024 .f32) (main_arg10 : FVec F S1 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x1 .f32) (main_arg5 : FVec F S2048x512 .f32) (main_arg6 : FVec F S2048x512 .f32) (main_arg7 : FVec F S2048 .f32) (main_arg8 : FVec F S2048 .f32) (main_arg9 : FVec F S1x1024 .f32) (main_arg10 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S16384x1 : Shape := ⟨2, ![16384, 1]⟩
abbrev S2048x512 : Shape := ⟨2, ![2048, 512]⟩
abbrev S2048 : Shape := ⟨1, ![2048]⟩
abbrev S1x1024 : Shape := ⟨2, ![1, 1024]⟩
abbrev S1 : Shape := ⟨1, ![1]⟩
abbrev S512x2048 : Shape := ⟨2, ![512, 2048]⟩
abbrev S1024x1 : Shape := ⟨2, ![1024, 1]⟩
abbrev S1x2048 : Shape := ⟨2, ![1, 2048]⟩
abbrev S1x1 : Shape := ⟨2, ![1, 1]⟩
abbrev S512x512 : Shape := ⟨2, ![512, 512]⟩
abbrev S512x1 : Shape := ⟨2, ![512, 1]⟩
abbrev S512x1024 : Shape := ⟨2, ![512, 1024]⟩

abbrev nBuf : Space → Nat
  | .hbm => 20
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S2048x512, .f32⟩
  | .hbm, ⟨6, _⟩ => ⟨S2048x512, .f32⟩
  | .hbm, ⟨7, _⟩ => ⟨S2048, .f32⟩
  | .hbm, ⟨8, _⟩ => ⟨S2048, .f32⟩
  | .hbm, ⟨9, _⟩ => ⟨S1x1024, .f32⟩
  | .hbm, ⟨10, _⟩ => ⟨S1, .f32⟩
  | .hbm, ⟨11, _⟩ => ⟨S512x2048, .f32⟩
  | .hbm, ⟨12, _⟩ => ⟨S512x2048, .f32⟩
  | .hbm, ⟨13, _⟩ => ⟨S1024x1, .f32⟩
  | .hbm, ⟨14, _⟩ => ⟨S1x2048, .f32⟩
  | .hbm, ⟨15, _⟩ => ⟨S1x2048, .f32⟩
  | .hbm, ⟨16, _⟩ => ⟨S1x1, .f32⟩
  | .hbm, ⟨17, _⟩ => ⟨S16384x512, .f32⟩
  | .hbm, ⟨18, _⟩ => ⟨S16384x512, .f32⟩
  | .hbm, ⟨19, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1, .f32⟩
  | .local _ .vmem, ⟨9, _⟩ => ⟨S512x1, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S1024x1, .f32⟩
  | .local _ .vmem, ⟨15, _⟩ => ⟨S1x1, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x1, .f32⟩
  | .local _ .vmem, ⟨21, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S2048x512_S512x2048_1_0 : S2048x512.Transposes [1, 0] S512x2048
  transposes_S1x1024_S1024x1_1_0 : S1x1024.Transposes [1, 0] S1024x1
  shapeCasts_S2048_S1x2048 : S2048.ShapeCasts S1x2048
  shapeCasts_S1_S1x1 : S1.ShapeCasts S1x1
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  broadcasts_S512x1_S512x512 : S512x1.Broadcasts S512x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  concatenates_S512x512_S512x512_S512x1024_d1 : Shape.Concatenates [S512x512, S512x512] S512x1024 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  dot_S512x512_S512x2048_S512x2048_1_0_0_1_n_n_wf : DotDims.WF S512x512 S512x2048 S512x2048 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .f32 = 32 ∨ (Rect.block (s := S512x2048) S512x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .f32 = 32 ∨ (Rect.block (s := S512x2048) S512x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .f32 = 32 ∨ (Rect.block (s := S1024x1) S1024x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S16384x512.size a
  hwx0_12 : ∀ i : grid0.Coords, EltTy.bits .f32 = 32 ∨ (Rect.block (s := S16384x512) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S16384x1.size a
  hwx0_13 : ∀ i : grid0.Coords, EltTy.bits .f32 = 32 ∨ (Rect.block (s := S16384x1) S512x1.size (cc0_transform_13 i) (hinb0_13 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v6_2) S512x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S2048x512 : Shape := ⟨2, ![2048, 512]⟩
abbrev S2048 : Shape := ⟨1, ![2048]⟩
abbrev S1x1024 : Shape := ⟨2, ![1, 1024]⟩
abbrev S1 : Shape := ⟨1, ![1]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩
abbrev S16384x1024 : Shape := ⟨2, ![16384, 1024]⟩
abbrev S1024x1 : Shape := ⟨2, ![1024, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S2048x512, .f32⟩
  | .hbm, ⟨6, _⟩ => ⟨S2048x512, .f32⟩
  | .hbm, ⟨7, _⟩ => ⟨S2048, .f32⟩
  | .hbm, ⟨8, _⟩ => ⟨S2048, .f32⟩
  | .hbm, ⟨9, _⟩ => ⟨S1x1024, .f32⟩
  | .hbm, ⟨10, _⟩ => ⟨S1, .f32⟩
  | .hbm, ⟨11, _⟩ => ⟨S16384x512, .f32⟩
  | .hbm, ⟨12, _⟩ => ⟨S16384x512, .f32⟩
  | .hbm, ⟨13, _⟩ => ⟨S512x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S512x2048, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x1024, .f32⟩
  | .hbm, ⟨59, _⟩ => ⟨S1024x1, .f32⟩
  | .hbm, ⟨60, _⟩ => ⟨S16384x1, .f32⟩
  | .hbm, ⟨61, _⟩ => ⟨S1x1, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S16384x1_S16384x512_0_1 : S16384x1.BroadcastsInDim S16384x512 (![0, 1] : Fin 2 → Fin S16384x512.rank)
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  concatenates_S16384x512_S16384x512_S16384x1024_d1 : Shape.Concatenates [S16384x512, S16384x512] S16384x1024 1
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x512_S512x2048_S16384x2048_1_0_0_1_n_n_wf : DotDims.WF S16384x512 S512x2048 S16384x2048 [1] [0] [0] [1] [] []
  dot_S16384x1024_S1024x1_S16384x1_1_0_0_1_n_n_wf : DotDims.WF S16384x1024 S1024x1 S16384x1 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.CellSpec.lean ====
/-
  One step of a gated recurrent cell over a batch, written row by row.

  For one batch row the four gate pre-activations are the entries of one vector of length 2048,
      g j = (∑ k, x k · Wi (k, j)) + bi j + (∑ k, hp k · Wh (k, j)) + bh j,
  where x is the input row already weighted by the row's scalar p, hp the previous hidden row, Wi and Wh the two weight
  matrices with the contraction index first, and bi, bh the two biases as one-row tables. Columns 0–511 are the input
  gate, 512–1023 the forget gate, 1024–1535 the candidate, 1536–2047 the output gate. With σ the logistic function,
      cell q   = σ (g (512 + q)) · cp q + σ (g q) · tanh (g (1024 + q)),
      hidden q = σ (g (1536 + q)) · tanh (cell q),
  and the row's new scalar is σ of the product of the row (h | hidden), of length 1024, with a column of 1024 weights, plus
  one bias. Everything is over the extended reals; sums are taken in the order written.
-/
import Idealize.ShloMosaic.PureOps.Ideal
import Idealize.ShloMosaic.Lib.ValueIdx

noncomputable section

namespace Cert.CellSpec

open Idealize.ShloMosaic Idealize.ShloMosaic.ValueIdx

/-- Column `o + q` of the gate vector: entry `q` of the gate that starts at column `o`. -/
abbrev col (o : Nat) (ho : o + 512 ≤ 2048) (q : Fin 512) : Fin 2048 := ⟨o + q.val, by have := q.isLt; omega⟩

/-- The gate pre-activations of one row. -/
def gatePre (x hp : Fin 512 → EReal) (Wi Wh : (⟨2, ![512, 2048]⟩ : Shape).Idx → EReal)
    (bi bh : (⟨2, ![1, 2048]⟩ : Shape).Idx → EReal) (j : Fin 2048) : EReal :=
  (∑ k : Fin 512, x k * Wi (ix2 k j)) + bi (ix2 (0 : Fin 1) j) + (∑ k : Fin 512, hp k * Wh (ix2 k j)) + bh (ix2 (0 : Fin 1) j)

/-- The new cell state of one row, from its gate vector `g` and its previous cell state `cp`. -/
def cellRow (g : Fin 2048 → EReal) (cp : Fin 512 → EReal) (q : Fin 512) : EReal :=
  Ideal.logistic (g (col 512 (by omega) q)) * cp q + Ideal.logistic (g (col 0 (by omega) q)) * Ideal.tanh (g (col 1024 (by omega) q))

/-- The new hidden state of one row. -/
def hiddenRow (g : Fin 2048 → EReal) (cp : Fin 512 → EReal) (q : Fin 512) : EReal :=
  Ideal.logistic (g (col 1536 (by omega) q)) * Ideal.tanh (cellRow g cp q)

/-- Two rows of length 512 laid side by side. -/
def sideBySide (a b : Fin 512 → EReal) (k : Fin 1024) : EReal :=
  if h : k.val < 512 then a ⟨k.val, h⟩ else b ⟨k.val - 512, by have := k.isLt; omega⟩

/-- The new scalar of one row: the logistic of (h | hidden) · Wp + bp. -/
def probRow (hrow hn : Fin 512 → EReal) (Wp : (⟨2, ![1024, 1]⟩ : Shape).Idx → EReal)
    (bp : (⟨2, ![1, 1]⟩ : Shape).Idx → EReal) : EReal :=
  Ideal.logistic ((∑ k : Fin 1024, sideBySide hrow hn k * Wp (ix2 k (0 : Fin 1))) + bp (ix2 (0 : Fin 1) (0 : Fin 1)))

section Arrays

variable (s h hp cp : (⟨2, ![16384, 512]⟩ : Shape).Idx → EReal) (p : (⟨2, ![16384, 1]⟩ : Shape).Idx → EReal)
  (Wi Wh : (⟨2, ![512, 2048]⟩ : Shape).Idx → EReal) (bi bh : (⟨2, ![1, 2048]⟩ : Shape).Idx → EReal)
  (Wp : (⟨2, ![1024, 1]⟩ : Shape).Idx → EReal) (bp : (⟨2, ![1, 1]⟩ : Shape).Idx → EReal)

/-- Row `r` of a 16384 × 512 array. -/
abbrev rowOf (a : (⟨2, ![16384, 512]⟩ : Shape).Idx → EReal) (r : Fin 16384) : Fin 512 → EReal := fun k => a (ix2 r k)

/-- The gate vector of batch row `r`: the input row weighted by `p r`. -/
def gatesAt (r : Fin 16384) : Fin 2048 → EReal :=
  gatePre (fun k => p (ix2 r (0 : Fin 1)) * s (ix2 r k)) (rowOf hp r) Wi Wh bi bh

/-- The new cell states, batch × 512. -/
def cellArr : (⟨2, ![16384, 512]⟩ : Shape).Idx → EReal :=
  fun i => cellRow (gatesAt s hp p Wi Wh bi bh (i 0)) (rowOf cp (i 0)) (i 1)

/-- The new hidden states, batch × 512. -/
def hiddenArr : (⟨2, ![16384, 512]⟩ : Shape).Idx → EReal :=
  fun i => hiddenRow (gatesAt s hp p Wi Wh bi bh (i 0)) (rowOf cp (i 0)) (i 1)

/-- The new scalars, batch × 1. -/
def probArr : (⟨2, ![16384, 1]⟩ : Shape).Idx → EReal :=
  fun i => probRow (rowOf h (i 0)) (hiddenRow (gatesAt s hp p Wi Wh bi bh (i 0)) (rowOf cp (i 0))) Wp bp

end Arrays

end Cert.CellSpec

end
-- ==== Proof.SideBySide.lean ====
/-
  Two tables of the same height, each 512 columns wide, joined along the columns, read at an entry: column k of the joined
  table is column k of the left table when k < 512 and column k − 512 of the right table otherwise.
-/
import proofs.«166395_j35150012350793_1_alg».proof.Proof.CellSpec
import Idealize.ShloMosaic.Lib.Pipeline.Value
import Idealize.ShloMosaic.Lib.ValueIdx

noncomputable section

namespace Cert.CellSpec

open Idealize.ShloMosaic Idealize.ShloMosaic.ValueIdx

/-- Row `a` of the join of `x` and `y` is row `a` of `x` and row `a` of `y` side by side. -/
theorem concatenate_row {n : Nat} (x y : (⟨2, ![n, 512]⟩ : Shape).Idx → EReal)
    (h : Shape.Concatenates [(⟨2, ![n, 512]⟩ : Shape), (⟨2, ![n, 512]⟩ : Shape)] ⟨2, ![n, 1024]⟩ 1) (a : Fin n) (k : Fin 1024) :
    concatenate ⟨2, ![n, 1024]⟩ 1 [⟨⟨2, ![n, 512]⟩, x⟩, ⟨⟨2, ![n, 512]⟩, y⟩] h (ix2 a k)
      = sideBySide (fun k => x (ix2 a k)) (fun k => y (ix2 a k)) k := by
  unfold sideBySide
  by_cases hk : k.val < 512
  · rw [dif_pos hk]
    exact concatenate_pair_apply_left 1 x y h (ix2 a k) rfl (ix2 a ⟨k.val, hk⟩)
      (fun b => match b with | ⟨0, _⟩ => rfl | ⟨1, _⟩ => rfl)
  · rw [dif_neg hk]
    refine concatenate_pair_apply_right 1 x y h (ix2 a k) rfl rfl (ix2 a ⟨k.val - 512, by have := k.isLt; omega⟩) ?_ ?_
    · intro b hb
      match b with
      | ⟨0, _⟩ => rfl
      | ⟨1, _⟩ => exact absurd rfl hb
    · show (k.val - 512) + 512 = k.val
      omega

end Cert.CellSpec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.KernelBlock.lean ====
/-
  What one grid step of the kernel computes, read entry by entry.

  The body works on a block of 512 batch rows. Its gate matrix (512 × 2048) is, at entry (a, j), the gate pre-activation
  j of row a of the block: the two matrix products are plain sums over the 512 contraction positions, the weighting by the
  row's scalar p is a column repeated along the row, and each bias is a one-row table repeated down the rows. The changes
  of float format are the identity on extended reals. The cell, the hidden state and the new scalar then follow the
  row-wise description of the cell.
-/
import proofs.«166395_j35150012350793_1_alg».proof.Proof.Gen.KernelIdeal.Skeleton
import proofs.«166395_j35150012350793_1_alg».proof.Proof.CellSpec
import proofs.«166395_j35150012350793_1_alg».proof.Proof.SideBySide
import proofs.«166395_j35150012350793_1_alg».proof.Proof.LibPlainDot
import proofs.«166395_j35150012350793_1_alg».proof.Proof.LibRowBroadcast
import proofs.«166395_j35150012350793_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelBlock

open Idealize.ShloMosaic Idealize.ShloMosaic.ValueIdx Cert.KernelIdeal Cert.KernelIdeal.Gen Cert.CellSpec

/-- A block product into the zero accumulator, at entry (a, j): the sum over the 512 contraction positions. -/
theorem gate_product {φ₁ φ₂ : FTy} (L : FVec Ideal S512x512 φ₁) (R : FVec Ideal S512x2048 φ₂) (a : Fin 512) (j : Fin 2048) :
    matmul dot_S512x512_S512x2048_S512x2048_1_0_0_1_n_n none L R (constant S512x2048 .f32 0x00000000#32) (ix2 a j)
      = ∑ k : Fin 512, L (ix2 a k) * R (ix2 k j) :=
  Cert.LibPlainDot.matmul_zero_apply _ rfl rfl rfl rfl rfl rfl none L R a j

/-- Entry (a, j) of the block's gate matrix is gate pre-activation j of the block's row a. -/
theorem gates_apply (v0 v2 : (⟨2, ![512, 512]⟩ : Shape).Idx → EReal) (v4 : (⟨2, ![512, 1]⟩ : Shape).Idx → EReal)
    (v8 v12 : (⟨2, ![512, 2048]⟩ : Shape).Idx → EReal) (v16 v22 : (⟨2, ![1, 2048]⟩ : Shape).Idx → EReal)
    (a : Fin 512) (j : Fin 2048) :
    k0_pay2 (F := Ideal) v0 v2 v4 v8 v12 v16 v22 (ix2 a j)
      = gatePre (fun k => v4 (ix2 a (0 : Fin 1)) * v0 (ix2 a k)) (fun k => v2 (ix2 a k)) v8 v12 v16 v22 j := by
  unfold k0_pay2 gatePre
  dsimp only
  rw [addf_apply, addf_apply, addf_apply, gate_product, gate_product,
    RowBroadcast.broadcastTo_row, RowBroadcast.broadcastTo_row]
  simp only [shapeCast_self]
  have e1 : ∀ k : Fin 512, (truncf FTy.bf16 (mulf (broadcastTo S512x512 v4 broadcasts_S512x1_S512x512) v0) bitsLt_bf16_f32 : FVec Ideal S512x512 .bf16) (ix2 a k)
      * (truncf FTy.bf16 v8 bitsLt_bf16_f32 : FVec Ideal S512x2048 .bf16) (ix2 k j)
      = v4 (ix2 a (0 : Fin 1)) * v0 (ix2 a k) * v8 (ix2 k j) := fun k => by
    rw [truncf_apply, truncf_apply, mulf_apply, ColumnForms.broadcastTo_a1_ac_apply]
  have e2 : ∀ k : Fin 512, (truncf FTy.bf16 v2 bitsLt_bf16_f32 : FVec Ideal S512x512 .bf16) (ix2 a k)
      * (truncf FTy.bf16 v12 bitsLt_bf16_f32 : FVec Ideal S512x2048 .bf16) (ix2 k j)
      = v2 (ix2 a k) * v12 (ix2 k j) := fun k => by
    rw [truncf_apply, truncf_apply]
  rw [Finset.sum_congr rfl fun k _ => e1 k, Finset.sum_congr rfl fun k _ => e2 k]

section Rows

variable (v0 v2 v3 : (⟨2, ![512, 512]⟩ : Shape).Idx → EReal) (v4 : (⟨2, ![512, 1]⟩ : Shape).Idx → EReal)
  (v8 v12 : (⟨2, ![512, 2048]⟩ : Shape).Idx → EReal) (v16 v22 : (⟨2, ![1, 2048]⟩ : Shape).Idx → EReal)

/-- Row `a` of the block's gate matrix. -/
abbrev gateRow (a : Fin 512) : Fin 2048 → EReal := fun j => k0_pay2 (F := Ideal) v0 v2 v4 v8 v12 v16 v22 (ix2 a j)

/-- Entry (a, q) of the block's new cell state, from row a of the gate matrix and of the previous cell state. -/
theorem cell_apply (a q : Fin 512) :
    k0_pay3 (F := Ideal) v0 v2 v3 v4 v8 v12 v16 v22 (ix2 a q)
      = cellRow (gateRow v0 v2 v4 v8 v12 v16 v22 a) (fun q => v3 (ix2 a q)) q := by
  unfold k0_pay3 cellRow
  show Ideal.logistic (extractStridedSlice S512x512 ![0, 512] (k0_pay2 (F := Ideal) v0 v2 v4 v8 v12 v16 v22) slices_S512x2048_o0_512_S512x512 (ix2 a q)) * v3 (ix2 a q)
      + Ideal.logistic (extractStridedSlice S512x512 ![0, 0] (k0_pay2 (F := Ideal) v0 v2 v4 v8 v12 v16 v22) slices_S512x2048_o0_0_S512x512 (ix2 a q))
        * Ideal.tanh (extractStridedSlice S512x512 ![0, 1024] (k0_pay2 (F := Ideal) v0 v2 v4 v8 v12 v16 v22) slices_S512x2048_o0_1024_S512x512 (ix2 a q)) = _
  rw [slice2_axis1_apply 512 _ _ a q (col 512 (by omega) q) rfl, slice2_axis1_apply 0 _ _ a q (col 0 (by omega) q) rfl,
    slice2_axis1_apply 1024 _ _ a q (col 1024 (by omega) q) rfl]

/-- Entry (a, q) of the block's new hidden state. -/
theorem hidden_apply (a q : Fin 512) :
    k0_pay4 (F := Ideal) v0 v2 v3 v4 v8 v12 v16 v22 (ix2 a q)
      = hiddenRow (gateRow v0 v2 v4 v8 v12 v16 v22 a) (fun q => v3 (ix2 a q)) q := by
  unfold k0_pay4 hiddenRow
  show Ideal.logistic (extractStridedSlice S512x512 ![0, 1536] (k0_pay2 (F := Ideal) v0 v2 v4 v8 v12 v16 v22) slices_S512x2048_o0_1536_S512x512 (ix2 a q))
      * Ideal.tanh (k0_pay3 (F := Ideal) v0 v2 v3 v4 v8 v12 v16 v22 (ix2 a q)) = _
  rw [slice2_axis1_apply 1536 _ _ a q (col 1536 (by omega) q) rfl, cell_apply]

end Rows

/-- The product of the joined rows with the weight column, into the zero accumulator, at row a. -/
theorem prob_product {φ₁ φ₂ : FTy} (L : FVec Ideal S512x1024 φ₁) (R : FVec Ideal S1024x1 φ₂) (a : Fin 512) (u : Fin 1) :
    matmul dot_S512x1024_S1024x1_S512x1_1_0_0_1_n_n none L R (constant S512x1 .f32 0x00000000#32) (ix2 a u)
      = ∑ k : Fin 1024, L (ix2 a k) * R (ix2 k u) :=
  Cert.LibPlainDot.matmul_zero_apply _ rfl rfl rfl rfl rfl rfl none L R a u

/-- Row a of the block's new scalar: the logistic of (h | hidden) · Wp + bp for the block's row a. -/
theorem prob_apply (v1 v38 : (⟨2, ![512, 512]⟩ : Shape).Idx → EReal) (v40 : (⟨2, ![1024, 1]⟩ : Shape).Idx → EReal)
    (v43 : (⟨2, ![1, 1]⟩ : Shape).Idx → EReal) (a : Fin 512) :
    k0_pay1 (F := Ideal) v1 v38 v40 v43 (ix2 a (0 : Fin 1))
      = probRow (fun k => v1 (ix2 a k)) (fun k => v38 (ix2 a k)) v40 v43 := by
  unfold k0_pay1 probRow
  show Ideal.logistic (matmul (F := Ideal) dot_S512x1024_S1024x1_S512x1_1_0_0_1_n_n none
        (concatenate S512x1024 1 [⟨S512x512, v1⟩, ⟨S512x512, v38⟩] concatenates_S512x512_S512x512_S512x1024_d1)
        (shapeCast S1024x1 v40 shapeCasts_S1024x1_S1024x1) (constant S512x1 .f32 0x00000000#32) (ix2 a (0 : Fin 1))
      + broadcastTo S512x1 (shapeCast S1x1 v43 shapeCasts_S1x1_S1x1) broadcasts_S1x1_S512x1 (ix2 a (0 : Fin 1))) = _
  rw [prob_product, RowBroadcast.broadcastTo_row]
  simp only [shapeCast_self]
  rw [Finset.sum_congr rfl fun k _ => congrArg (· * v40 (ix2 k (0 : Fin 1))) (concatenate_row v1 v38 concatenates_S512x512_S512x512_S512x1024_d1 a k)]

end Cert.KernelBlock

end
-- ==== Proof.BlockRows.lean ====
/-
  A block's row is a row of the whole arrays.

  If row a of each streamed block (s, h, the previous hidden and cell states, and the column p) is row r of the
  corresponding array, then what the body computes at row a of the block is what the row-wise cell gives at row r of the
  batch: the gate vector, the new cell and hidden states, and the new scalar. The weights and biases are the same tables
  for every block.
-/
import proofs.«166395_j35150012350793_1_alg».proof.Proof.KernelBlock

noncomputable section

namespace Cert.KernelBlock

open Idealize.ShloMosaic Idealize.ShloMosaic.ValueIdx Cert.KernelIdeal Cert.KernelIdeal.Gen Cert.CellSpec

section

variable (s h hp cp : (⟨2, ![16384, 512]⟩ : Shape).Idx → EReal) (p : (⟨2, ![16384, 1]⟩ : Shape).Idx → EReal)
  (Wi Wh : (⟨2, ![512, 2048]⟩ : Shape).Idx → EReal) (bi bh : (⟨2, ![1, 2048]⟩ : Shape).Idx → EReal)
  (Wp : (⟨2, ![1024, 1]⟩ : Shape).Idx → EReal) (bp : (⟨2, ![1, 1]⟩ : Shape).Idx → EReal)
  (x0 x1 x2 x3 : (⟨2, ![512, 512]⟩ : Shape).Idx → EReal) (x4 : (⟨2, ![512, 1]⟩ : Shape).Idx → EReal)
  (r : Fin 16384) (a : Fin 512)

/-- Row a of the block's gate matrix is the gate vector of batch row r. -/
theorem gateRow_eq (h0 : ∀ k, x0 (ix2 a k) = s (ix2 r k)) (h2 : ∀ k, x2 (ix2 a k) = hp (ix2 r k))
    (h4 : x4 (ix2 a (0 : Fin 1)) = p (ix2 r (0 : Fin 1))) :
    gateRow x0 x2 x4 Wi Wh bi bh a = gatesAt s hp p Wi Wh bi bh r := by
  funext j
  show k0_pay2 (F := Ideal) x0 x2 x4 Wi Wh bi bh (ix2 a j) = _
  rw [gates_apply, h4]
  unfold gatesAt
  simp only [h0, h2] <;> rfl

/-- Entry (a, q) of the block's new cell state is entry (r, q) of the batch's. -/
theorem cell_block (h0 : ∀ k, x0 (ix2 a k) = s (ix2 r k)) (h2 : ∀ k, x2 (ix2 a k) = hp (ix2 r k))
    (h3 : ∀ k, x3 (ix2 a k) = cp (ix2 r k)) (h4 : x4 (ix2 a (0 : Fin 1)) = p (ix2 r (0 : Fin 1))) (q : Fin 512) :
    k0_pay3 (F := Ideal) x0 x2 x3 x4 Wi Wh bi bh (ix2 a q) = cellArr s hp cp p Wi Wh bi bh (ix2 r q) := by
  rw [cell_apply, gateRow_eq s hp p Wi Wh bi bh x0 x2 x4 r a h0 h2 h4, funext h3]
  rfl

/-- Entry (a, q) of the block's new hidden state is entry (r, q) of the batch's. -/
theorem hidden_block (h0 : ∀ k, x0 (ix2 a k) = s (ix2 r k)) (h2 : ∀ k, x2 (ix2 a k) = hp (ix2 r k))
    (h3 : ∀ k, x3 (ix2 a k) = cp (ix2 r k)) (h4 : x4 (ix2 a (0 : Fin 1)) = p (ix2 r (0 : Fin 1))) (q : Fin 512) :
    k0_pay4 (F := Ideal) x0 x2 x3 x4 Wi Wh bi bh (ix2 a q) = hiddenArr s hp cp p Wi Wh bi bh (ix2 r q) := by
  rw [hidden_apply, gateRow_eq s hp p Wi Wh bi bh x0 x2 x4 r a h0 h2 h4, funext h3]
  rfl

/-- Row a of the block's new scalar is row r of the batch's. -/
theorem prob_block (h0 : ∀ k, x0 (ix2 a k) = s (ix2 r k)) (h1 : ∀ k, x1 (ix2 a k) = h (ix2 r k))
    (h2 : ∀ k, x2 (ix2 a k) = hp (ix2 r k)) (h3 : ∀ k, x3 (ix2 a k) = cp (ix2 r k))
    (h4 : x4 (ix2 a (0 : Fin 1)) = p (ix2 r (0 : Fin 1))) :
    k0_pay1 (F := Ideal) x1 (k0_pay4 (F := Ideal) x0 x2 x3 x4 Wi Wh bi bh) Wp bp (ix2 a (0 : Fin 1))
      = probArr s h hp cp p Wi Wh bi bh Wp bp (ix2 r (0 : Fin 1)) := by
  rw [prob_apply, funext h1,
    funext fun k => hidden_block s hp cp p Wi Wh bi bh x0 x2 x3 x4 r a h0 h2 h3 h4 k]
  rfl

end

end Cert.KernelBlock

end
-- ==== Proof.KernelArray.lean ====
/-
  From the blocks to the arrays: what the kernel leaves in its three result arrays.

  Grid step t streams rows 512 t … 512 t + 511 of s, h, the previous hidden and cell states and of the column p, keeps the
  two transposed weight matrices, the two bias rows, the weight column and its bias whole, and writes rows
  512 t … 512 t + 511 of the three results. Row a of a streamed block is therefore row 512 t + a of its array, so each
  written block is the matching block of the row-wise cell's result, and the 32 blocks cover all 16384 rows.
-/
import proofs.«166395_j35150012350793_1_alg».proof.Proof.Gen.KernelIdeal.Value
import proofs.«166395_j35150012350793_1_alg».proof.Proof.BlockRows
import Idealize.ShloMosaic.Lib.Pipeline.Value
import Idealize.ShloMosaic.Lib.Tactic
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.KernelIdeal.Value Cert.CellSpec

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, at their literal types -/

abbrev sA (c : Dev nD) : (⟨2, ![16384, 512]⟩ : Shape).Idx → EReal := V m c main_arg0
abbrev hA (c : Dev nD) : (⟨2, ![16384, 512]⟩ : Shape).Idx → EReal := V m c main_arg1
abbrev hpA (c : Dev nD) : (⟨2, ![16384, 512]⟩ : Shape).Idx → EReal := V m c main_arg2
abbrev cpA (c : Dev nD) : (⟨2, ![16384, 512]⟩ : Shape).Idx → EReal := V m c main_arg3
abbrev pA (c : Dev nD) : (⟨2, ![16384, 1]⟩ : Shape).Idx → EReal := V m c main_arg4
abbrev WiA (c : Dev nD) : (⟨2, ![512, 2048]⟩ : Shape).Idx → EReal := V m c main_v0
abbrev WhA (c : Dev nD) : (⟨2, ![512, 2048]⟩ : Shape).Idx → EReal := V m c main_v1
abbrev biA (c : Dev nD) : (⟨2, ![1, 2048]⟩ : Shape).Idx → EReal := V m c main_v3
abbrev bhA (c : Dev nD) : (⟨2, ![1, 2048]⟩ : Shape).Idx → EReal := V m c main_v4
abbrev WpA (c : Dev nD) : (⟨2, ![1024, 1]⟩ : Shape).Idx → EReal := V m c main_v2
abbrev bpA (c : Dev nD) : (⟨2, ![1, 1]⟩ : Shape).Idx → EReal := V m c main_v5

/-! ## Where each window's block sits -/

/-- The printed index maps over the grid: a streamed window's block index is (t, 0); a resident window's is (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Row a of the block of s at step t is row 512 t + a of s. -/
theorem sBlock_apply (c : Dev nD) (t : Fin cfg0.N) (a k : Fin 512) (r : Fin 16384) (hr : r.val = 512 * t.val + a.val) :
    (iblk m c 0 t : (⟨2, ![512, 512]⟩ : Shape).Idx → EReal) (ix2 a k) = sA m c (ix2 r k) := by
  obtain ⟨i0, i1, i2, i3, i4, i5, i6, i7, i8, i9, i10, i11, i12, i13⟩ := block_index t
  unfold iblk
  rw [View.read_apply]
  show V m c main_arg0 _ = V m c main_arg0 _
  congr 1
  funext b
  apply Fin.ext
  match b with
  | ⟨0, _⟩ => show win0_0.index t (0 : Fin 2) * 512 + 1 * a.val = r.val; rw [i0.1, hr]; omega
  | ⟨1, _⟩ => show win0_0.index t (1 : Fin 2) * 512 + 1 * k.val = k.val; rw [i0.2]; omega

/-- Row a of the block of h at step t is row 512 t + a of h. -/
theorem hBlock_apply (c : Dev nD) (t : Fin cfg0.N) (a k : Fin 512) (r : Fin 16384) (hr : r.val = 512 * t.val + a.val) :
    (iblk m c 1 t : (⟨2, ![512, 512]⟩ : Shape).Idx → EReal) (ix2 a k) = hA m c (ix2 r k) := by
  obtain ⟨i0, i1, i2, i3, i4, i5, i6, i7, i8, i9, i10, i11, i12, i13⟩ := block_index t
  unfold iblk
  rw [View.read_apply]
  show V m c main_arg1 _ = V m c main_arg1 _
  congr 1
  funext b
  apply Fin.ext
  match b with
  | ⟨0, _⟩ => show win0_1.index t (0 : Fin 2) * 512 + 1 * a.val = r.val; rw [i1.1, hr]; omega
  | ⟨1, _⟩ => show win0_1.index t (1 : Fin 2) * 512 + 1 * k.val = k.val; rw [i1.2]; omega

/-- Row a of the block of the previous hidden state at step t is row 512 t + a of the previous hidden state. -/
theorem hpBlock_apply (c : Dev nD) (t : Fin cfg0.N) (a k : Fin 512) (r : Fin 16384) (hr : r.val = 512 * t.val + a.val) :
    (iblk m c 2 t : (⟨2, ![512, 512]⟩ : Shape).Idx → EReal) (ix2 a k) = hpA m c (ix2 r k) := by
  obtain ⟨i0, i1, i2, i3, i4, i5, i6, i7, i8, i9, i10, i11, i12, i13⟩ := block_index t
  unfold iblk
  rw [View.read_apply]
  show V m c main_arg2 _ = V m c main_arg2 _
  congr 1
  funext b
  apply Fin.ext
  match b with
  | ⟨0, _⟩ => show win0_2.index t (0 : Fin 2) * 512 + 1 * a.val = r.val; rw [i2.1, hr]; omega
  | ⟨1, _⟩ => show win0_2.index t (1 : Fin 2) * 512 + 1 * k.val = k.val; rw [i2.2]; omega

/-- Row a of the block of the previous cell state at step t is row 512 t + a of the previous cell state. -/
theorem cpBlock_apply (c : Dev nD) (t : Fin cfg0.N) (a k : Fin 512) (r : Fin 16384) (hr : r.val = 512 * t.val + a.val) :
    (iblk m c 3 t : (⟨2, ![512, 512]⟩ : Shape).Idx → EReal) (ix2 a k) = cpA m c (ix2 r k) := by
  obtain ⟨i0, i1, i2, i3, i4, i5, i6, i7, i8, i9, i10, i11, i12, i13⟩ := block_index t
  unfold iblk
  rw [View.read_apply]
  show V m c main_arg3 _ = V m c main_arg3 _
  congr 1
  funext b
  apply Fin.ext
  match b with
  | ⟨0, _⟩ => show win0_3.index t (0 : Fin 2) * 512 + 1 * a.val = r.val; rw [i3.1, hr]; omega
  | ⟨1, _⟩ => show win0_3.index t (1 : Fin 2) * 512 + 1 * k.val = k.val; rw [i3.2]; omega

/-- Row a of the block of the column p at step t is row 512 t + a of p. -/
theorem pBlock_apply (c : Dev nD) (t : Fin cfg0.N) (a : Fin 512) (r : Fin 16384) (hr : r.val = 512 * t.val + a.val) :
    (iblk m c 4 t : (⟨2, ![512, 1]⟩ : Shape).Idx → EReal) (ix2 a (0 : Fin 1)) = pA m c (ix2 r (0 : Fin 1)) := by
  obtain ⟨i0, i1, i2, i3, i4, i5, i6, i7, i8, i9, i10, i11, i12, i13⟩ := block_index t
  unfold iblk
  rw [View.read_apply]
  show V m c main_arg4 _ = V m c main_arg4 _
  congr 1
  funext b
  apply Fin.ext
  match b with
  | ⟨0, _⟩ => show win0_4.index t (0 : Fin 2) * 512 + 1 * a.val = r.val; rw [i4.1, hr]; omega
  | ⟨1, _⟩ => show win0_4.index t (1 : Fin 2) * 1 + 1 * 0 = 0; rw [i4.2]

/-- The resident block of the transposed input weights is the whole table, at every step. -/
theorem WiBlock (c : Dev nD) (t : Fin cfg0.N) :
    (iblk m c 5 t : (⟨2, ![512, 2048]⟩ : Shape).Idx → EReal) = WiA m c := by
  obtain ⟨i0, i1, i2, i3, i4, i5, i6, i7, i8, i9, i10, i11, i12, i13⟩ := block_index t
  funext y
  unfold iblk
  rw [View.read_apply]
  show V m c main_v0 _ = V m c main_v0 _
  congr 1
  funext b
  apply Fin.ext
  match b with
  | ⟨0, _⟩ => show win0_5.index t (0 : Fin 2) * 512 + 1 * (y 0).val = (y 0).val; rw [i5.1]; omega
  | ⟨1, _⟩ => show win0_5.index t (1 : Fin 2) * 2048 + 1 * (y 1).val = (y 1).val; rw [i5.2]; omega

/-- The resident block of the transposed hidden weights is the whole table, at every step. -/
theorem WhBlock (c : Dev nD) (t : Fin cfg0.N) :
    (iblk m c 6 t : (⟨2, ![512, 2048]⟩ : Shape).Idx → EReal) = WhA m c := by
  obtain ⟨i0, i1, i2, i3, i4, i5, i6, i7, i8, i9, i10, i11, i12, i13⟩ := block_index t
  funext y
  unfold iblk
  rw [View.read_apply]
  show V m c main_v1 _ = V m c main_v1 _
  congr 1
  funext b
  apply Fin.ext
  match b with
  | ⟨0, _⟩ => show win0_6.index t (0 : Fin 2) * 512 + 1 * (y 0).val = (y 0).val; rw [i6.1]; omega
  | ⟨1, _⟩ => show win0_6.index t (1 : Fin 2) * 2048 + 1 * (y 1).val = (y 1).val; rw [i6.2]; omega

/-- The resident block of the input bias row is the whole table, at every step. -/
theorem biBlock (c : Dev nD) (t : Fin cfg0.N) :
    (iblk m c 7 t : (⟨2, ![1, 2048]⟩ : Shape).Idx → EReal) = biA m c := by
  obtain ⟨i0, i1, i2, i3, i4, i5, i6, i7, i8, i9, i10, i11, i12, i13⟩ := block_index t
  funext y
  unfold iblk
  rw [View.read_apply]
  show V m c main_v3 _ = V m c main_v3 _
  congr 1
  funext b
  apply Fin.ext
  match b with
  | ⟨0, _⟩ => show win0_7.index t (0 : Fin 2) * 1 + 1 * (y 0).val = (y 0).val; rw [i7.1]; omega
  | ⟨1, _⟩ => show win0_7.index t (1 : Fin 2) * 2048 + 1 * (y 1).val = (y 1).val; rw [i7.2]; omega

/-- The resident block of the hidden bias row is the whole table, at every step. -/
theorem bhBlock (c : Dev nD) (t : Fin cfg0.N) :
    (iblk m c 8 t : (⟨2, ![1, 2048]⟩ : Shape).Idx → EReal) = bhA m c := by
  obtain ⟨i0, i1, i2, i3, i4, i5, i6, i7, i8, i9, i10, i11, i12, i13⟩ := block_index t
  funext y
  unfold iblk
  rw [View.read_apply]
  show V m c main_v4 _ = V m c main_v4 _
  congr 1
  funext b
  apply Fin.ext
  match b with
  | ⟨0, _⟩ => show win0_8.index t (0 : Fin 2) * 1 + 1 * (y 0).val = (y 0).val; rw [i8.1]; omega
  | ⟨1, _⟩ => show win0_8.index t (1 : Fin 2) * 2048 + 1 * (y 1).val = (y 1).val; rw [i8.2]; omega

/-- The resident block of the weight column is the whole table, at every step. -/
theorem WpBlock (c : Dev nD) (t : Fin cfg0.N) :
    (iblk m c 9 t : (⟨2, ![1024, 1]⟩ : Shape).Idx → EReal) = WpA m c := by
  obtain ⟨i0, i1, i2, i3, i4, i5, i6, i7, i8, i9, i10, i11, i12, i13⟩ := block_index t
  funext y
  unfold iblk
  rw [View.read_apply]
  show V m c main_v2 _ = V m c main_v2 _
  congr 1
  funext b
  apply Fin.ext
  match b with
  | ⟨0, _⟩ => show win0_9.index t (0 : Fin 2) * 1024 + 1 * (y 0).val = (y 0).val; rw [i9.1]; omega
  | ⟨1, _⟩ => show win0_9.index t (1 : Fin 2) * 1 + 1 * (y 1).val = (y 1).val; rw [i9.2]; omega

/-- The resident block of the scalar bias is the whole table, at every step. -/
theorem bpBlock (c : Dev nD) (t : Fin cfg0.N) :
    (iblk m c 10 t : (⟨2, ![1, 1]⟩ : Shape).Idx → EReal) = bpA m c := by
  obtain ⟨i0, i1, i2, i3, i4, i5, i6, i7, i8, i9, i10, i11, i12, i13⟩ := block_index t
  funext y
  unfold iblk
  rw [View.read_apply]
  show V m c main_v5 _ = V m c main_v5 _
  congr 1
  funext b
  apply Fin.ext
  match b with
  | ⟨0, _⟩ => show win0_10.index t (0 : Fin 2) * 1 + 1 * (y 0).val = (y 0).val; rw [i10.1]; omega
  | ⟨1, _⟩ => show win0_10.index t (1 : Fin 2) * 1 + 1 * (y 1).val = (y 1).val; rw [i10.2]; omega

/-! ## What each step writes back -/

theorem steps_lt (t : Fin cfg0.N) : t.val < 32 := Nat.lt_of_lt_of_eq t.isLt N_0

/-- Step t writes block t of the new hidden state. -/
theorem hidden_flushed (c : Dev nD) (t : Fin cfg0.N) :
    (dats m 0 c).flushed 11 t = ((cfg0.win 11).blk t).view.read (Elt Ideal)
      (hiddenArr (sA m c) (hpA m c) (cpA m c) (pA m c) (WiA m c) (WhA m c) (biA m c) (bhA m c)) := by
  obtain ⟨i0, i1, i2, i3, i4, i5, i6, i7, i8, i9, i10, i11, i12, i13⟩ := block_index t
  have ht := steps_lt t
  rw [flushed11]
  unfold out0_11
  rw [View.canon_unit_zero hz]
  simp only [View.ld_unit_zero (S := S512x512) hz, View.ld_unit_zero (S := S512x1) hz, View.ld_unit_zero (S := S512x2048) hz,
    View.ld_unit_zero (S := S1x2048) hz]
  funext j
  have hj0 : (j 0).val < 512 := Nat.lt_of_lt_of_le (j 0).isLt ((win0 11).xsize_le (grid0.coords t) 0)
  have hj1 : (j 1).val < 512 := Nat.lt_of_lt_of_le (j 1).isLt ((win0 11).xsize_le (grid0.coords t) 1)
  rw [View.read_apply]
  have ea : ((win0 11).xinj (grid0.coords t) j : (⟨2, ![512, 512]⟩ : Shape).Idx)
      = ix2 (⟨(j 0).val, hj0⟩ : Fin 512) (⟨(j 1).val, hj1⟩ : Fin 512) :=
    funext fun d => match d with | ⟨0, _⟩ => rfl | ⟨1, _⟩ => rfl
  have eb : (((View.whole main_v6_0).slice ((win0 11).rect t)).emb j : (⟨2, ![16384, 512]⟩ : Shape).Idx)
      = ix2 (⟨512 * t.val + (j 0).val, by omega⟩ : Fin 16384) (⟨(j 1).val, hj1⟩ : Fin 512) :=
    funext fun d => Fin.ext (match d with
      | ⟨0, _⟩ => (show win0_11.index t (0 : Fin 2) * 512 + 1 * (j 0).val = 512 * t.val + (j 0).val by rw [i11.1]; omega)
      | ⟨1, _⟩ => (show win0_11.index t (1 : Fin 2) * 512 + 1 * (j 1).val = (j 1).val by rw [i11.2]; omega))
  show k0_pay4 (F := Ideal) (iblk m c 0 t) (iblk m c 2 t) (iblk m c 3 t) (iblk m c 4 t) (iblk m c 5 t) (iblk m c 6 t) (iblk m c 7 t)
      (iblk m c 8 t) ((win0 11).xinj (grid0.coords t) j)
    = hiddenArr (sA m c) (hpA m c) (cpA m c) (pA m c) (WiA m c) (WhA m c) (biA m c) (bhA m c)
        (((View.whole main_v6_0).slice ((win0 11).rect t)).emb j)
  rw [ea, eb, WiBlock m c t, WhBlock m c t, biBlock m c t, bhBlock m c t]
  exact Cert.KernelBlock.hidden_block (sA m c) (hpA m c) (cpA m c) (pA m c) (WiA m c) (WhA m c) (biA m c) (bhA m c)
    (iblk m c 0 t) (iblk m c 2 t) (iblk m c 3 t) (iblk m c 4 t) ⟨512 * t.val + (j 0).val, by omega⟩ ⟨(j 0).val, hj0⟩
    (fun k => sBlock_apply m c t _ k _ rfl) (fun k => hpBlock_apply m c t _ k _ rfl) (fun k => cpBlock_apply m c t _ k _ rfl)
    (pBlock_apply m c t _ _ rfl) ⟨(j 1).val, hj1⟩

/-- Step t writes block t of the new cell state. -/
theorem cell_flushed (c : Dev nD) (t : Fin cfg0.N) :
    (dats m 0 c).flushed 12 t = ((cfg0.win 12).blk t).view.read (Elt Ideal)
      (cellArr (sA m c) (hpA m c) (cpA m c) (pA m c) (WiA m c) (WhA m c) (biA m c) (bhA m c)) := by
  obtain ⟨i0, i1, i2, i3, i4, i5, i6, i7, i8, i9, i10, i11, i12, i13⟩ := block_index t
  have ht := steps_lt t
  rw [flushed12]
  unfold out0_12
  rw [View.canon_unit_zero hz]
  simp only [View.ld_unit_zero (S := S512x512) hz, View.ld_unit_zero (S := S512x1) hz, View.ld_unit_zero (S := S512x2048) hz,
    View.ld_unit_zero (S := S1x2048) hz]
  funext j
  have hj0 : (j 0).val < 512 := Nat.lt_of_lt_of_le (j 0).isLt ((win0 12).xsize_le (grid0.coords t) 0)
  have hj1 : (j 1).val < 512 := Nat.lt_of_lt_of_le (j 1).isLt ((win0 12).xsize_le (grid0.coords t) 1)
  rw [View.read_apply]
  have ea : ((win0 12).xinj (grid0.coords t) j : (⟨2, ![512, 512]⟩ : Shape).Idx)
      = ix2 (⟨(j 0).val, hj0⟩ : Fin 512) (⟨(j 1).val, hj1⟩ : Fin 512) :=
    funext fun d => match d with | ⟨0, _⟩ => rfl | ⟨1, _⟩ => rfl
  have eb : (((View.whole main_v6_1).slice ((win0 12).rect t)).emb j : (⟨2, ![16384, 512]⟩ : Shape).Idx)
      = ix2 (⟨512 * t.val + (j 0).val, by omega⟩ : Fin 16384) (⟨(j 1).val, hj1⟩ : Fin 512) :=
    funext fun d => Fin.ext (match d with
      | ⟨0, _⟩ => (show win0_12.index t (0 : Fin 2) * 512 + 1 * (j 0).val = 512 * t.val + (j 0).val by rw [i12.1]; omega)
      | ⟨1, _⟩ => (show win0_12.index t (1 : Fin 2) * 512 + 1 * (j 1).val = (j 1).val by rw [i12.2]; omega))
  show k0_pay3 (F := Ideal) (iblk m c 0 t) (iblk m c 2 t) (iblk m c 3 t) (iblk m c 4 t) (iblk m c 5 t) (iblk m c 6 t) (iblk m c 7 t)
      (iblk m c 8 t) ((win0 12).xinj (grid0.coords t) j)
    = cellArr (sA m c) (hpA m c) (cpA m c) (pA m c) (WiA m c) (WhA m c) (biA m c) (bhA m c)
        (((View.whole main_v6_1).slice ((win0 12).rect t)).emb j)
  rw [ea, eb, WiBlock m c t, WhBlock m c t, biBlock m c t, bhBlock m c t]
  exact Cert.KernelBlock.cell_block (sA m c) (hpA m c) (cpA m c) (pA m c) (WiA m c) (WhA m c) (biA m c) (bhA m c)
    (iblk m c 0 t) (iblk m c 2 t) (iblk m c 3 t) (iblk m c 4 t) ⟨512 * t.val + (j 0).val, by omega⟩ ⟨(j 0).val, hj0⟩
    (fun k => sBlock_apply m c t _ k _ rfl) (fun k => hpBlock_apply m c t _ k _ rfl) (fun k => cpBlock_apply m c t _ k _ rfl)
    (pBlock_apply m c t _ _ rfl) ⟨(j 1).val, hj1⟩

/-- Step t writes block t of the new scalars. -/
theorem prob_flushed (c : Dev nD) (t : Fin cfg0.N) :
    (dats m 0 c).flushed 13 t = ((cfg0.win 13).blk t).view.read (Elt Ideal)
      (probArr (sA m c) (hA m c) (hpA m c) (cpA m c) (pA m c) (WiA m c) (WhA m c) (biA m c) (bhA m c) (WpA m c) (bpA m c)) := by
  obtain ⟨i0, i1, i2, i3, i4, i5, i6, i7, i8, i9, i10, i11, i12, i13⟩ := block_index t
  have ht := steps_lt t
  rw [flushed13]
  unfold out0_13
  rw [View.canon_unit_zero hz]
  simp only [View.ld_unit_zero (S := S512x512) hz, View.ld_unit_zero (S := S512x1) hz, View.ld_unit_zero (S := S512x2048) hz,
    View.ld_unit_zero (S := S1x2048) hz, View.ld_unit_zero (S := S1024x1) hz, View.ld_unit_zero (S := S1x1) hz]
  funext j
  have hj0 : (j 0).val < 512 := Nat.lt_of_lt_of_le (j 0).isLt ((win0 13).xsize_le (grid0.coords t) 0)
  have hj1 : (j 1).val < 1 := Nat.lt_of_lt_of_le (j 1).isLt ((win0 13).xsize_le (grid0.coords t) 1)
  rw [View.read_apply]
  have ea : ((win0 13).xinj (grid0.coords t) j : (⟨2, ![512, 1]⟩ : Shape).Idx)
      = ix2 (⟨(j 0).val, hj0⟩ : Fin 512) (0 : Fin 1) :=
    funext fun d => match d with
      | ⟨0, _⟩ => rfl
      | ⟨1, _⟩ => Fin.ext (show (j 1).val = 0 by omega)
  have eb : (((View.whole main_v6_2).slice ((win0 13).rect t)).emb j : (⟨2, ![16384, 1]⟩ : Shape).Idx)
      = ix2 (⟨512 * t.val + (j 0).val, by omega⟩ : Fin 16384) (0 : Fin 1) :=
    funext fun d => Fin.ext (match d with
      | ⟨0, _⟩ => (show win0_13.index t (0 : Fin 2) * 512 + 1 * (j 0).val = 512 * t.val + (j 0).val by rw [i13.1]; omega)
      | ⟨1, _⟩ => (show win0_13.index t (1 : Fin 2) * 1 + 1 * (j 1).val = 0 by rw [i13.2]; omega))
  show k0_pay1 (F := Ideal) (iblk m c 1 t) (k0_pay4 (F := Ideal) (iblk m c 0 t) (iblk m c 2 t) (iblk m c 3 t) (iblk m c 4 t) (iblk m c 5 t)
      (iblk m c 6 t) (iblk m c 7 t) (iblk m c 8 t)) (iblk m c 9 t) (iblk m c 10 t) ((win0 13).xinj (grid0.coords t) j)
    = probArr (sA m c) (hA m c) (hpA m c) (cpA m c) (pA m c) (WiA m c) (WhA m c) (biA m c) (bhA m c) (WpA m c) (bpA m c)
        (((View.whole main_v6_2).slice ((win0 13).rect t)).emb j)
  rw [ea, eb, WiBlock m c t, WhBlock m c t, biBlock m c t, bhBlock m c t, WpBlock m c t, bpBlock m c t]
  exact Cert.KernelBlock.prob_block (sA m c) (hA m c) (hpA m c) (cpA m c) (pA m c) (WiA m c) (WhA m c) (biA m c) (bhA m c)
    (WpA m c) (bpA m c) (iblk m c 0 t) (iblk m c 1 t) (iblk m c 2 t) (iblk m c 3 t) (iblk m c 4 t)
    ⟨512 * t.val + (j 0).val, by omega⟩ ⟨(j 0).val, hj0⟩
    (fun k => sBlock_apply m c t _ k _ rfl) (fun k => hBlock_apply m c t _ k _ rfl) (fun k => hpBlock_apply m c t _ k _ rfl)
    (fun k => cpBlock_apply m c t _ k _ rfl) (pBlock_apply m c t _ _ rfl)

/-! ## The 32 blocks cover all 16384 rows -/

/-- Row r lies in the block of step r / 512. -/
theorem stepOf (r : Nat) (hr : r < 16384) : r / 512 < cfg0.N := by
  rw [show cfg0.N = 32 from N_0]; omega

theorem hidden_cover (i : S16384x512.Idx) :
    ∃ t : Fin cfg0.N, (cfg0.win 11).flush t = true ∧ i ∈ ((cfg0.win 11).blk t).view.set := by
  have h0 : (i 0).val < 16384 := (i 0).isLt
  have h1 : (i 1).val < 512 := (i 1).isLt
  obtain ⟨t, ht⟩ : ∃ t : Fin cfg0.N, t.val = (i 0).val / 512 := ⟨⟨(i 0).val / 512, stepOf _ h0⟩, rfl⟩
  refine ⟨t, flush0_11 t, ?_⟩
  obtain ⟨-, -, -, -, -, -, -, -, -, -, -, ⟨e0, e1⟩, -⟩ := block_index t
  show i ∈ ((View.whole main_v6_0).slice (win0_11.rect t)).set
  rw [View.set_slice_whole, Rect.mem_set_unit]
  intro a
  match a with
  | ⟨0, _⟩ =>
    show win0_11.index t (0 : Fin 2) * 512 ≤ (i 0).val ∧ (i 0).val < win0_11.index t (0 : Fin 2) * 512 + 512
    rw [e0, ht]; omega
  | ⟨1, _⟩ =>
    show win0_11.index t (1 : Fin 2) * 512 ≤ (i 1).val ∧ (i 1).val < win0_11.index t (1 : Fin 2) * 512 + 512
    rw [e1]; omega

theorem cell_cover (i : S16384x512.Idx) :
    ∃ t : Fin cfg0.N, (cfg0.win 12).flush t = true ∧ i ∈ ((cfg0.win 12).blk t).view.set := by
  have h0 : (i 0).val < 16384 := (i 0).isLt
  have h1 : (i 1).val < 512 := (i 1).isLt
  obtain ⟨t, ht⟩ : ∃ t : Fin cfg0.N, t.val = (i 0).val / 512 := ⟨⟨(i 0).val / 512, stepOf _ h0⟩, rfl⟩
  refine ⟨t, flush0_12 t, ?_⟩
  obtain ⟨i0, i1, i2, i3, i4, i5, i6, i7, i8, i9, i10, i11, i12, i13⟩ := block_index t
  show i ∈ ((View.whole main_v6_1).slice (win0_12.rect t)).set
  rw [View.set_slice_whole, Rect.mem_set_unit]
  intro a
  match a with
  | ⟨0, _⟩ =>
    show win0_12.index t (0 : Fin 2) * 512 ≤ (i 0).val ∧ (i 0).val < win0_12.index t (0 : Fin 2) * 512 + 512
    rw [i12.1, ht]; omega
  | ⟨1, _⟩ =>
    show win0_12.index t (1 : Fin 2) * 512 ≤ (i 1).val ∧ (i 1).val < win0_12.index t (1 : Fin 2) * 512 + 512
    rw [i12.2]; omega

theorem prob_cover (i : S16384x1.Idx) :
    ∃ t : Fin cfg0.N, (cfg0.win 13).flush t = true ∧ i ∈ ((cfg0.win 13).blk t).view.set := by
  have h0 : (i 0).val < 16384 := (i 0).isLt
  have h1 : (i 1).val < 1 := (i 1).isLt
  obtain ⟨t, ht⟩ : ∃ t : Fin cfg0.N, t.val = (i 0).val / 512 := ⟨⟨(i 0).val / 512, stepOf _ h0⟩, rfl⟩
  refine ⟨t, flush0_13 t, ?_⟩
  obtain ⟨i0, i1, i2, i3, i4, i5, i6, i7, i8, i9, i10, i11, i12, i13⟩ := block_index t
  show i ∈ ((View.whole main_v6_2).slice (win0_13.rect t)).set
  rw [View.set_slice_whole, Rect.mem_set_unit]
  intro a
  match a with
  | ⟨0, _⟩ =>
    show win0_13.index t (0 : Fin 2) * 512 ≤ (i 0).val ∧ (i 0).val < win0_13.index t (0 : Fin 2) * 512 + 512
    rw [i13.1, ht]; omega
  | ⟨1, _⟩ =>
    show win0_13.index t (1 : Fin 2) * 1 ≤ (i 1).val ∧ (i 1).val < win0_13.index t (1 : Fin 2) * 1 + 1
    rw [i13.2]; omega

/-! ## The result arrays after the run -/

theorem hidden_final (c : Dev nD) : (dats m 0 c).arrAt 11 cfg0.N
    = hiddenArr (sA m c) (hpA m c) (cpA m c) (pA m c) (WiA m c) (WhA m c) (biA m c) (bhA m c) :=
  (dats m 0 c).arrAt_eq_of_cover 11 _ (fun t _ => hidden_flushed m c t) hidden_cover

theorem cell_final (c : Dev nD) : (dats m 0 c).arrAt 12 cfg0.N
    = cellArr (sA m c) (hpA m c) (cpA m c) (pA m c) (WiA m c) (WhA m c) (biA m c) (bhA m c) :=
  (dats m 0 c).arrAt_eq_of_cover 12 _ (fun t _ => cell_flushed m c t) cell_cover

theorem prob_final (c : Dev nD) : (dats m 0 c).arrAt 13 cfg0.N
    = probArr (sA m c) (hA m c) (hpA m c) (cpA m c) (pA m c) (WiA m c) (WhA m c) (biA m c) (bhA m c) (WpA m c) (bpA m c) :=
  (dats m 0 c).arrAt_eq_of_cover 13 _ (fun t _ => prob_flushed m c t) prob_cover

/-! ## The tables the host prepares before the launch -/

/-- The input weights reach the kernel transposed. -/
theorem WiA_eq (c : Dev nD) : WiA m c = transpose S512x2048 [1, 0] (m ((c : Thread nD τ).loc main_arg5)) transposes_S2048x512_S512x2048_1_0 := by
  dsimp only [WiA, V, hostOps0]
  after_results

/-- The hidden weights reach the kernel transposed. -/
theorem WhA_eq (c : Dev nD) : WhA m c = transpose S512x2048 [1, 0] (m ((c : Thread nD τ).loc main_arg6)) transposes_S2048x512_S512x2048_1_0 := by
  dsimp only [WhA, V, hostOps0]
  after_results

/-- The weight row reaches the kernel as a column. -/
theorem WpA_eq (c : Dev nD) : WpA m c = transpose S1024x1 [1, 0] (m ((c : Thread nD τ).loc main_arg9)) transposes_S1x1024_S1024x1_1_0 := by
  dsimp only [WpA, V, hostOps0]
  after_results

/-- The input bias reaches the kernel as a one-row table. -/
theorem biA_eq (c : Dev nD) : biA m c = shapeCast S1x2048 (m ((c : Thread nD τ).loc main_arg7)) shapeCasts_S2048_S1x2048 := by
  dsimp only [biA, V, hostOps0]
  after_results
  rfl

/-- The hidden bias reaches the kernel as a one-row table. -/
theorem bhA_eq (c : Dev nD) : bhA m c = shapeCast S1x2048 (m ((c : Thread nD τ).loc main_arg8)) shapeCasts_S2048_S1x2048 := by
  dsimp only [bhA, V, hostOps0]
  after_results
  rfl

/-- The scalar bias reaches the kernel as a one-by-one table. -/
theorem bpA_eq (c : Dev nD) : bpA m c = shapeCast S1x1 (m ((c : Thread nD τ).loc main_arg10)) shapeCasts_S1_S1x1 := by
  dsimp only [bpA, V, hostOps0]
  after_results
  rfl

/-! ## The run, read -/

/-- The new hidden state as a function of the arguments. -/
abbrev hiddenOut (c : Dev nD) : (⟨2, ![16384, 512]⟩ : Shape).Idx → EReal :=
  hiddenArr (m ((c : Thread nD τ).loc main_arg0)) (m ((c : Thread nD τ).loc main_arg2)) (m ((c : Thread nD τ).loc main_arg3)) (m ((c : Thread nD τ).loc main_arg4))
    (transpose S512x2048 [1, 0] (m ((c : Thread nD τ).loc main_arg5)) transposes_S2048x512_S512x2048_1_0)
    (transpose S512x2048 [1, 0] (m ((c : Thread nD τ).loc main_arg6)) transposes_S2048x512_S512x2048_1_0)
    (shapeCast S1x2048 (m ((c : Thread nD τ).loc main_arg7)) shapeCasts_S2048_S1x2048) (shapeCast S1x2048 (m ((c : Thread nD τ).loc main_arg8)) shapeCasts_S2048_S1x2048)

/-- The new cell state as a function of the arguments. -/
abbrev cellOut (c : Dev nD) : (⟨2, ![16384, 512]⟩ : Shape).Idx → EReal :=
  cellArr (m ((c : Thread nD τ).loc main_arg0)) (m ((c : Thread nD τ).loc main_arg2)) (m ((c : Thread nD τ).loc main_arg3)) (m ((c : Thread nD τ).loc main_arg4))
    (transpose S512x2048 [1, 0] (m ((c : Thread nD τ).loc main_arg5)) transposes_S2048x512_S512x2048_1_0)
    (transpose S512x2048 [1, 0] (m ((c : Thread nD τ).loc main_arg6)) transposes_S2048x512_S512x2048_1_0)
    (shapeCast S1x2048 (m ((c : Thread nD τ).loc main_arg7)) shapeCasts_S2048_S1x2048) (shapeCast S1x2048 (m ((c : Thread nD τ).loc main_arg8)) shapeCasts_S2048_S1x2048)

/-- The new scalars as a function of the arguments. -/
abbrev probOut (c : Dev nD) : (⟨2, ![16384, 1]⟩ : Shape).Idx → EReal :=
  probArr (m ((c : Thread nD τ).loc main_arg0)) (m ((c : Thread nD τ).loc main_arg1)) (m ((c : Thread nD τ).loc main_arg2)) (m ((c : Thread nD τ).loc main_arg3)) (m ((c : Thread nD τ).loc main_arg4))
    (transpose S512x2048 [1, 0] (m ((c : Thread nD τ).loc main_arg5)) transposes_S2048x512_S512x2048_1_0)
    (transpose S512x2048 [1, 0] (m ((c : Thread nD τ).loc main_arg6)) transposes_S2048x512_S512x2048_1_0)
    (shapeCast S1x2048 (m ((c : Thread nD τ).loc main_arg7)) shapeCasts_S2048_S1x2048) (shapeCast S1x2048 (m ((c : Thread nD τ).loc main_arg8)) shapeCasts_S2048_S1x2048)
    (transpose S1024x1 [1, 0] (m ((c : Thread nD τ).loc main_arg9)) transposes_S1x1024_S1024x1_1_0) (shapeCast S1x1 (m ((c : Thread nD τ).loc main_arg10)) shapeCasts_S1_S1x1)

theorem hidden_out (c : Dev nD) : (dats m 0 c).arrAt 11 cfg0.N = hiddenOut m c := by
  rw [hidden_final, WiA_eq, WhA_eq, biA_eq, bhA_eq]
  show hiddenArr (V m c main_arg0) (V m c main_arg2) (V m c main_arg3) (V m c main_arg4) _ _ _ _ = _
  rw [V_main_arg0, V_main_arg2, V_main_arg3, V_main_arg4]

theorem cell_out (c : Dev nD) : (dats m 0 c).arrAt 12 cfg0.N = cellOut m c := by
  rw [cell_final, WiA_eq, WhA_eq, biA_eq, bhA_eq]
  show cellArr (V m c main_arg0) (V m c main_arg2) (V m c main_arg3) (V m c main_arg4) _ _ _ _ = _
  rw [V_main_arg0, V_main_arg2, V_main_arg3, V_main_arg4]

theorem prob_out (c : Dev nD) : (dats m 0 c).arrAt 13 cfg0.N = probOut m c := by
  rw [prob_final, WiA_eq, WhA_eq, biA_eq, bhA_eq, WpA_eq, bpA_eq]
  show probArr (V m c main_arg0) (V m c main_arg1) (V m c main_arg2) (V m c main_arg3) (V m c main_arg4) _ _ _ _ _ _ = _
  rw [V_main_arg0, V_main_arg1, V_main_arg2, V_main_arg3, V_main_arg4]

/-- Every weakly fair execution of the kernel program ends with the three results at the row-wise cell of the arguments,
    the arguments unchanged. -/
theorem run : θ_run defs (onTc (τ := τ) (main (F := Ideal))) ⟨m, fun _ => 0, ρ⟩ fun r => ∀ c : Dev nD,
      r.2.mem ((c : Thread nD τ).loc main_v6_0) = hiddenOut m c
      ∧ r.2.mem ((c : Thread nD τ).loc main_v6_1) = cellOut m c
      ∧ r.2.mem ((c : Thread nD τ).loc main_v6_2) = probOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (hidden_out m c), (h c).2.1.trans (cell_out m c),
      (h c).2.2.1.trans (prob_out m c), (h c).2.2.2⟩)
    (Cert.KernelIdeal.Value.run_blocks m ρ)

end Cert.KernelArray

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.RefCell.lean ====
/-
  The reference program, read entry by entry, is the row-wise cell.

  Its gate matrix (16384 × 2048) at entry (r, j) is gate pre-activation j of batch row r: each `dot_general` is the plain
  sum over the 512 contraction positions, the input is the row of s weighted by p r, and each bias is broadcast down the
  rows. The reference spells the logistic function as 1 / (1 + exp (−x)) with the constant one written as a float word;
  that word denotes the real number one, so the spelling is the logistic function itself. The four column bands of the gate
  matrix are the four gates; the new scalar is read through the join of h and the new hidden state along the columns.
-/
import proofs.«166395_j35150012350793_1_alg».proof.Proof.Gen.ReferenceIdeal.Read
import proofs.«166395_j35150012350793_1_alg».proof.Proof.CellSpec
import proofs.«166395_j35150012350793_1_alg».proof.Proof.SideBySide
import proofs.«166395_j35150012350793_1_alg».proof.Proof.LibReshapeAsBroadcast
import Idealize.ShloMosaic.Lib.Pipeline.Value
import Idealize.ShloMosaic.Lib.ValueIdx
import Idealize.ShloMosaic.Lib.IdealHost

noncomputable section

namespace Cert.RefCell

open Idealize.ShloMosaic Idealize.ShloMosaic.ValueIdx Cert.ReferenceIdeal Cert.ReferenceIdeal.Read Cert.CellSpec

/-- The reference's spelling of the logistic function, with one as the float word `0x3F800000`. -/
theorem host_logistic (x : EReal) :
    Ideal.div (Ideal.ofBits .f32 0x3F800000#32) (Ideal.ofBits .f32 0x3F800000#32 + Ideal.exp (-x)) = Ideal.logistic x := by
  rw [Ideal.ofBits_one_f32]; rfl

variable (x0 x1 x2 x3 : (⟨S16384x512, .f32⟩ : BufTy).Contents (Elt Ideal)) (x4 : (⟨S16384x1, .f32⟩ : BufTy).Contents (Elt Ideal)) (x5 x6 : (⟨S2048x512, .f32⟩ : BufTy).Contents (Elt Ideal)) (x7 x8 : (⟨S2048, .f32⟩ : BufTy).Contents (Elt Ideal)) (x9 : (⟨S1x1024, .f32⟩ : BufTy).Contents (Elt Ideal)) (x10 : (⟨S1, .f32⟩ : BufTy).Contents (Elt Ideal))

/-- Entry (r, j) of the reference's gate matrix is gate pre-activation j of batch row r. -/
theorem gates_apply (r : Fin 16384) (j : Fin 2048) :
    val_main_v12 (F := Ideal) x0 x2 x4 x5 x6 x7 x8 (ix2 r j)
      = gatesAt x0 x2 x4 (val_main_v2 (F := Ideal) x5) (val_main_v7 (F := Ideal) x6) (val_main_v4 (F := Ideal) x7) (val_main_v10 (F := Ideal) x8) r j := by
  have l3 : ∀ k : Fin 512, lidx_main_v3 (ix2 r j) k = ix2 r k := fun k => funext fun a => match a with | ⟨0, _⟩ => rfl | ⟨1, _⟩ => rfl
  have r3 : ∀ k : Fin 512, ridx_main_v3 (ix2 r j) k = ix2 k j := fun k => funext fun a => match a with | ⟨0, _⟩ => rfl | ⟨1, _⟩ => rfl
  have l8 : ∀ k : Fin 512, lidx_main_v8 (ix2 r j) k = ix2 r k := fun k => funext fun a => match a with | ⟨0, _⟩ => rfl | ⟨1, _⟩ => rfl
  have r8 : ∀ k : Fin 512, ridx_main_v8 (ix2 r j) k = ix2 k j := fun k => funext fun a => match a with | ⟨0, _⟩ => rfl | ⟨1, _⟩ => rfl
  have i0 : ∀ k : Fin 512, idx_main_v0 (ix2 r k) = ix2 r (0 : Fin 1) := fun k => funext fun a => match a with | ⟨0, _⟩ => rfl | ⟨1, _⟩ => rfl
  have i5 : idx_main_v5 (ix2 r j) = ix2 (0 : Fin 1) j := funext fun a => match a with | ⟨0, _⟩ => rfl | ⟨1, _⟩ => rfl
  have i11 : idx_main_v11 (ix2 r j) = ix2 (0 : Fin 1) j := funext fun a => match a with | ⟨0, _⟩ => rfl | ⟨1, _⟩ => rfl
  rw [val_main_v12_apply, val_main_v9_apply, val_main_v6_apply, val_main_v3_apply, val_main_v8_apply, val_main_v5_apply,
    val_main_v11_apply, i5, i11]
  unfold gatesAt gatePre
  have e1 : ∀ k : Fin 512, val_main_v1 (F := Ideal) x0 x4 (lidx_main_v3 (ix2 r j) k) * val_main_v2 (F := Ideal) x5 (ridx_main_v3 (ix2 r j) k)
      = x4 (ix2 r (0 : Fin 1)) * x0 (ix2 r k) * val_main_v2 (F := Ideal) x5 (ix2 k j) := fun k => by
    rw [l3, r3, val_main_v1_apply, val_main_v0_apply, i0]; rfl
  have e2 : ∀ k : Fin 512, x2 (lidx_main_v8 (ix2 r j) k) * val_main_v7 (F := Ideal) x6 (ridx_main_v8 (ix2 r j) k)
      = x2 (ix2 r k) * val_main_v7 (F := Ideal) x6 (ix2 k j) := fun k => by rw [l8, r8]
  rw [Finset.sum_congr rfl fun k _ => e1 k, Finset.sum_congr rfl fun k _ => e2 k]
  rfl

/-- Row `r` of the reference's gate matrix, as the row-wise cell names it. -/
abbrev gateRow (r : Fin 16384) : Fin 2048 → EReal :=
  gatesAt x0 x2 x4 (val_main_v2 (F := Ideal) x5) (val_main_v7 (F := Ideal) x6) (val_main_v4 (F := Ideal) x7) (val_main_v10 (F := Ideal) x8) r

/-- The input gate: the logistic of columns 0–511. -/
theorem inputGate_apply (r : Fin 16384) (q : Fin 512) :
    val_main_v22 (F := Ideal) x0 x2 x4 x5 x6 x7 x8 (ix2 r q) = Ideal.logistic (gateRow x0 x2 x4 x5 x6 x7 x8 r (col 0 (by omega) q)) := by
  have i : idx_main_v13 (ix2 r q) = ix2 r (col 0 (by omega) q) :=
    funext fun a => match a with | ⟨0, _⟩ => rfl | ⟨1, _⟩ => Fin.ext (Nat.zero_add _).symm
  rw [val_main_v22_apply, val_main_v21_apply, val_main_cst_0_apply, val_main_v20_apply, val_main_v19_apply, val_main_cst_apply,
    val_main_v18_apply, val_main_v17_apply, val_main_v13_apply, i, gates_apply]
  exact host_logistic _

/-- The forget gate: the logistic of columns 512–1023. -/
theorem forgetGate_apply (r : Fin 16384) (q : Fin 512) :
    val_main_v28 (F := Ideal) x0 x2 x4 x5 x6 x7 x8 (ix2 r q) = Ideal.logistic (gateRow x0 x2 x4 x5 x6 x7 x8 r (col 512 (by omega) q)) := by
  have i : idx_main_v14 (ix2 r q) = ix2 r (col 512 (by omega) q) :=
    funext fun a => match a with | ⟨0, _⟩ => rfl | ⟨1, _⟩ => rfl
  rw [val_main_v28_apply, val_main_v27_apply, val_main_cst_2_apply, val_main_v26_apply, val_main_v25_apply, val_main_cst_1_apply,
    val_main_v24_apply, val_main_v23_apply, val_main_v14_apply, i, gates_apply]
  exact host_logistic _

/-- The candidate: the hyperbolic tangent of columns 1024–1535. -/
theorem candidate_apply (r : Fin 16384) (q : Fin 512) :
    val_main_v29 (F := Ideal) x0 x2 x4 x5 x6 x7 x8 (ix2 r q) = Ideal.tanh (gateRow x0 x2 x4 x5 x6 x7 x8 r (col 1024 (by omega) q)) := by
  have i : idx_main_v15 (ix2 r q) = ix2 r (col 1024 (by omega) q) :=
    funext fun a => match a with | ⟨0, _⟩ => rfl | ⟨1, _⟩ => rfl
  rw [val_main_v29_apply, val_main_v15_apply, i, gates_apply]
  rfl

/-- The output gate: the logistic of columns 1536–2047. -/
theorem outputGate_apply (r : Fin 16384) (q : Fin 512) :
    val_main_v35 (F := Ideal) x0 x2 x4 x5 x6 x7 x8 (ix2 r q) = Ideal.logistic (gateRow x0 x2 x4 x5 x6 x7 x8 r (col 1536 (by omega) q)) := by
  have i : idx_main_v16 (ix2 r q) = ix2 r (col 1536 (by omega) q) :=
    funext fun a => match a with | ⟨0, _⟩ => rfl | ⟨1, _⟩ => rfl
  rw [val_main_v35_apply, val_main_v34_apply, val_main_cst_4_apply, val_main_v33_apply, val_main_v32_apply, val_main_cst_3_apply,
    val_main_v31_apply, val_main_v30_apply, val_main_v16_apply, i, gates_apply]
  exact host_logistic _

/-- The reference's new cell state is the row-wise cell's. -/
theorem cell_eq : val_main_v38 (F := Ideal) x0 x2 x3 x4 x5 x6 x7 x8
    = cellArr x0 x2 x3 x4 (val_main_v2 (F := Ideal) x5) (val_main_v7 (F := Ideal) x6) (val_main_v4 (F := Ideal) x7) (val_main_v10 (F := Ideal) x8) := by
  funext i
  obtain ⟨r, q, rfl⟩ : ∃ (r : Fin 16384) (q : Fin 512), i = ix2 r q := ⟨i 0, i 1, eq_ix2 i⟩
  rw [val_main_v38_apply, val_main_v36_apply, val_main_v37_apply, forgetGate_apply, inputGate_apply, candidate_apply]
  rfl

/-- The reference's new hidden state is the row-wise cell's. -/
theorem hidden_eq : val_main_v40 (F := Ideal) x0 x2 x3 x4 x5 x6 x7 x8
    = hiddenArr x0 x2 x3 x4 (val_main_v2 (F := Ideal) x5) (val_main_v7 (F := Ideal) x6) (val_main_v4 (F := Ideal) x7) (val_main_v10 (F := Ideal) x8) := by
  funext i
  obtain ⟨r, q, rfl⟩ : ∃ (r : Fin 16384) (q : Fin 512), i = ix2 r q := ⟨i 0, i 1, eq_ix2 i⟩
  rw [val_main_v40_apply, val_main_v39_apply, outputGate_apply, cell_eq]
  rfl

/-- The reference's new scalar is the row-wise cell's. -/
theorem prob_eq : val_main_v52 (F := Ideal) x0 x1 x2 x3 x4 x5 x6 x7 x8 x9 x10
    = probArr x0 x1 x2 x3 x4 (val_main_v2 (F := Ideal) x5) (val_main_v7 (F := Ideal) x6) (val_main_v4 (F := Ideal) x7) (val_main_v10 (F := Ideal) x8)
        (val_main_v42 (F := Ideal) x9) (val_main_v44 (F := Ideal) x10) := by
  funext i
  obtain ⟨r, u, rfl⟩ : ∃ (r : Fin 16384) (u : Fin 1), i = ix2 r u := ⟨i 0, i 1, eq_ix2 i⟩
  obtain rfl : u = 0 := Subsingleton.elim _ _
  have l : ∀ k : Fin 1024, lidx_main_v43 (ix2 r (0 : Fin 1)) k = ix2 r k := fun k => funext fun a => match a with | ⟨0, _⟩ => rfl | ⟨1, _⟩ => rfl
  have rr : ∀ k : Fin 1024, ridx_main_v43 (ix2 r (0 : Fin 1)) k = ix2 k (0 : Fin 1) := fun k => funext fun a => match a with | ⟨0, _⟩ => rfl | ⟨1, _⟩ => rfl
  have i45 : idx_main_v45 (ix2 r (0 : Fin 1)) = ix2 (0 : Fin 1) (0 : Fin 1) := funext fun a => match a with | ⟨0, _⟩ => rfl | ⟨1, _⟩ => rfl
  rw [val_main_v52_apply, val_main_v51_apply, val_main_cst_6_apply, val_main_v50_apply, val_main_v49_apply, val_main_cst_5_apply,
    val_main_v48_apply, val_main_v47_apply, val_main_v46_apply, val_main_v43_apply, val_main_v45_apply, i45]
  refine (host_logistic _).trans ?_
  have e : ∀ k : Fin 1024, val_main_v41 (F := Ideal) x0 x1 x2 x3 x4 x5 x6 x7 x8 (lidx_main_v43 (ix2 r (0 : Fin 1)) k)
        * val_main_v42 (F := Ideal) x9 (ridx_main_v43 (ix2 r (0 : Fin 1)) k)
      = sideBySide (fun k => x1 (ix2 r k)) (hiddenRow (gateRow x0 x2 x4 x5 x6 x7 x8 r) (fun q => x3 (ix2 r q))) k
        * val_main_v42 (F := Ideal) x9 (ix2 k (0 : Fin 1)) := fun k => by
    rw [l, rr]
    unfold val_main_v41
    rw [concatenate_row (n := 16384) x1 (val_main_v40 (F := Ideal) x0 x2 x3 x4 x5 x6 x7 x8) _ r k, hidden_eq]
    rfl
  rw [Finset.sum_congr rfl fun k _ => e k]
  rfl

/-! ## The reference's bias tables are the kernel's

The reference lays a bias vector out as a one-row table by a broadcast, the kernel's host code by a reshape: the same table. -/

theorem inputBias_eq (h : S2048.ShapeCasts S1x2048) : val_main_v4 (F := Ideal) x7 = shapeCast S1x2048 x7 h := by
  unfold val_main_v4
  exact (ReshapeAsBroadcast.shapeCast_row 2048 x7 h _).symm

theorem hiddenBias_eq (h : S2048.ShapeCasts S1x2048) : val_main_v10 (F := Ideal) x8 = shapeCast S1x2048 x8 h := by
  unfold val_main_v10
  exact (ReshapeAsBroadcast.shapeCast_row 2048 x8 h _).symm

theorem scalarBias_eq (h : S1.ShapeCasts S1x1) : val_main_v44 (F := Ideal) x10 = shapeCast S1x1 x10 h := by
  unfold val_main_v44
  exact (ReshapeAsBroadcast.shapeCast_row 1 x10 h _).symm

end Cert.RefCell

end
-- ==== Proof.lean ====
/-
  One step of a gated recurrent cell over a batch of 16384 rows: the kernel against its array-level reference, over the
  extended reals.

  Both programs compute, for every batch row r, the gate vector
      g = (p r · s r) · W_ihᵀ + b_ih + h_prev r · W_hhᵀ + b_hh        (four sums in this order),
  the new cell state σ(g_f) · c_prev r + σ(g_i) · tanh(g_c), the new hidden state σ(g_o) · tanh(cell), and the new scalar
  σ((h r | hidden) · W_pᵀ + b_p), with σ the logistic function.

  The kernel walks the batch in 32 blocks of 512 rows and keeps the weights resident; a block's row is a row of the whole
  arrays, its matrix products are plain sums over the contraction index, its changes of float format are the identity on
  extended reals, and the 32 written blocks cover every row (Proof/KernelBlock.lean, Proof/BlockRows.lean,
  Proof/KernelArray.lean). The reference works on whole arrays and spells σ as 1 / (1 + exp (−x)) with one as a float word,
  which denotes the real one (Proof/RefCell.lean). Both are the row-wise cell of Proof/CellSpec.lean; no law of arithmetic
  beyond that is needed, so the finiteness of the inputs is not used. The two host-side layouts of a bias vector as a
  one-row table, a reshape in the kernel's wrapper and a broadcast in the reference, are the same table.
  The kernel's idealization rewrote nothing, so there is nothing to preserve.
-/
import proofs.«166395_j35150012350793_1_alg».proof.Defs
import proofs.«166395_j35150012350793_1_alg».proof.Proof.Gen.Kernel
import proofs.«166395_j35150012350793_1_alg».proof.Proof.Gen.Kernel.Skeleton
import proofs.«166395_j35150012350793_1_alg».proof.Proof.Gen.Kernel.Launch
import proofs.«166395_j35150012350793_1_alg».proof.Proof.Gen.Kernel.Points
import proofs.«166395_j35150012350793_1_alg».proof.Proof.Gen.Kernel.Frame
import proofs.«166395_j35150012350793_1_alg».proof.Proof.Gen.KernelIdeal
import proofs.«166395_j35150012350793_1_alg».proof.Proof.Gen.KernelIdeal.Skeleton
import proofs.«166395_j35150012350793_1_alg».proof.Proof.Gen.KernelIdeal.Launch
import proofs.«166395_j35150012350793_1_alg».proof.Proof.Gen.KernelIdeal.Points
import proofs.«166395_j35150012350793_1_alg».proof.Proof.Gen.KernelIdeal.Frame
import proofs.«166395_j35150012350793_1_alg».proof.Proof.Gen.ReferenceIdeal
import proofs.«166395_j35150012350793_1_alg».proof.Proof.Gen.Pre_finite_inputs
import proofs.«166395_j35150012350793_1_alg».proof.Proof.Gen.KernelIdeal.Value
import proofs.«166395_j35150012350793_1_alg».proof.Proof.Gen.ReferenceIdeal.Run
import proofs.«166395_j35150012350793_1_alg».proof.Proof.Gen.ReferenceIdeal.Read
import proofs.«166395_j35150012350793_1_alg».proof.Proof.KernelArray
import proofs.«166395_j35150012350793_1_alg».proof.Proof.RefCell
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The kernel ends at the row-wise cell of its arguments (Proof/KernelArray.lean), the reference at the row-wise cell of
    its own (Proof/RefCell.lean); the arguments agree, and the two layouts of each bias are one table. -/
theorem algebraic : Cert.algebraic_KernelIdeal_ReferenceIdeal := by
  intro m ρ m' ρ' _ hagree
  refine ⟨fun c => Cert.KernelArray.hiddenOut m c, fun c => Cert.KernelArray.cellOut m c, fun c => Cert.KernelArray.probOut m c,
    Cert.KernelArray.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [Cert.ReferenceIdeal.Read.val_main_v40_eq, Cert.RefCell.hidden_eq, a0, a2, a3, a4, a5, a6, a7, a8,
      Cert.RefCell.inputBias_eq _ Cert.KernelIdeal.Facts₀.shapeCasts_S2048_S1x2048,
      Cert.RefCell.hiddenBias_eq _ Cert.KernelIdeal.Facts₀.shapeCasts_S2048_S1x2048]
    rfl
  · refine (Cert.ReferenceIdeal.Read.val_main_v38_eq _ _ _ _ _ _ _ _).trans ?_
    rw [Cert.RefCell.cell_eq, a0, a2, a3, a4, a5, a6, a7, a8,
      Cert.RefCell.inputBias_eq _ Cert.KernelIdeal.Facts₀.shapeCasts_S2048_S1x2048,
      Cert.RefCell.hiddenBias_eq _ Cert.KernelIdeal.Facts₀.shapeCasts_S2048_S1x2048]
    rfl
  · rw [Cert.ReferenceIdeal.Read.val_main_v52_eq, Cert.RefCell.prob_eq, a0, a1, a2, a3, a4, a5, a6, a7, a8, a9, a10,
      Cert.RefCell.inputBias_eq _ Cert.KernelIdeal.Facts₀.shapeCasts_S2048_S1x2048,
      Cert.RefCell.hiddenBias_eq _ Cert.KernelIdeal.Facts₀.shapeCasts_S2048_S1x2048,
      Cert.RefCell.scalarBias_eq _ Cert.KernelIdeal.Facts₀.shapeCasts_S1_S1x1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
